-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x128 : Shape := ⟨2, ![1600000, 128]⟩
abbrev S50000x64 : Shape := ⟨2, ![50000, 64]⟩
abbrev S1600000 : Shape := ⟨1, ![1600000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S1600000x128 : S_.BroadcastsInDim S1600000x128 (![] : Fin 0 → Fin S1600000x128.rank)
  reducesTo_S1600000x128_S_d0_1 : S1600000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S1600000x128 .f32) (main_arg1 : FVec F S50000x64 .f32) (main_arg2 : IVec S1600000 32) (main_arg3 : IVec S1600000 32) (main_arg4 : FVec F S64x128 .f32) (main_arg5 : FVec F S64 .f32) (main_arg6 : FVec F S64x64 .f32) (main_arg7 : FVec F S64 .f32) : IVec S_ 1 :=
  let main_v0 : FVec F S1600000x128 .f32 := Host.absf main_arg0
  let main_cst : FVec F S_ .f32 := constant S_ .f32 0x7F800000#32
  let main_v1 : FVec F S1600000x128 .f32 := broadcastInDim S1600000x128 ![] bcast_S_S1600000x128 main_cst
  let main_v2 : IVec S1600000x128 1 := cmpf .olt main_v0 main_v1
  let main_c : IVec S_ 1 := constantI S_ 1 1#1
  let main_v3 : IVec S_ 1 := (fun x v => Host.reduce IntOp.andi x v reducesTo_S1600000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S1600000x128 : Shape := ⟨2, ![1600000, 128]⟩
abbrev S50000x64 : Shape := ⟨2, ![50000, 64]⟩
abbrev S1600000 : Shape := ⟨1, ![1600000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1600000x64 : Shape := ⟨2, ![1600000, 64]⟩
abbrev S12800x128 : Shape := ⟨2, ![12800, 128]⟩
abbrev S12800x64 : Shape := ⟨2, ![12800, 64]⟩
abbrev S_ : Shape := ⟨0, ![]⟩
abbrev S1600000x1 : Shape := ⟨2, ![1600000, 1]⟩

abbrev nBuf : Space → Nat
  | .hbm => 25
  | .vmem => 8
  | .smem => 0
  | _ => 0

abbrev bufTy : (tb : Table) → Fin (tcTables nBuf tb) → BufTy
  | .hbm, ⟨0, _⟩ => ⟨S1600000x128, .f32⟩
  | .hbm, ⟨1, _⟩ => ⟨S50000x64, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x64, .f32⟩
  | .hbm, ⟨9, _⟩ => ⟨S1x64, .f32⟩
  | .hbm, ⟨10, _⟩ => ⟨S1600000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S50000x64, .f32⟩
  | .hbm, ⟨23, _⟩ => ⟨S1600000x1, .i32⟩
  | .hbm, ⟨24, _⟩ => ⟨S50000x64, .f32⟩
  | .local _ .vmem, ⟨0, _⟩ => ⟨S12800x128, .f32⟩
  | .local _ .vmem, ⟨1, _⟩ => ⟨S12800x128, .f32⟩
  | .local _ .vmem, ⟨2, _⟩ => ⟨S64x128, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S12800x64, .f32⟩
  | .local _ .vmem, ⟨7, _⟩ => ⟨S12800x64, .f32⟩
  | _, _ => ⟨S1600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S12800x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  inb_S12800x128_S12800x128_0_0 : ∀ a, (![0, 0] : Fin 2 → Nat) a + S12800x128.size a ≤ S12800x128.size a
  h_S12800x128 : 0 < S12800x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12800x64 : S1x64.Broadcasts S12800x64
  inb_S64x64_S64x64_0_0 : ∀ a, (![0, 0] : Fin 2 → Nat) a + S64x64.size a ≤ S64x64.size a
  h_S64x64 : 0 < S64x64.numel
  inb_S12800x64_S12800x64_0_0 : ∀ a, (![0, 0] : Fin 2 → Nat) a + S12800x64.size a ≤ S12800x64.size a
  h_S12800x64 : 0 < S12800x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  dot_S12800x128_S64x128_S12800x64_1_1_0_0_n_n_wf : DotDims.WF S12800x128 S64x128 S12800x64 [1] [1] [0] [0] [] []
  dot_S12800x64_S64x64_S12800x64_1_1_0_0_n_n_wf : DotDims.WF S12800x64 S64x64 S12800x64 [1] [1] [0] [0] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x128.size a ≤ S1600000x128.size a
  hwx0_0 : ∀ i : grid0.Coords, EltTy.bits .f32 = 32 ∨ (Rect.block (s := S1600000x128) S12800x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S12800x64.size a ≤ S1600000x64.size a
  hwx0_5 : ∀ i : grid0.Coords, EltTy.bits .f32 = 32 ∨ (Rect.block (s := S1600000x64) S12800x64.size (cc0_transform_5 i) (hinb0_5 i)).WholeWords (EltTy.packing .f32)

variable [Facts₀]

def dot_S12800x128_S64x128_S12800x64_1_1_0_0_n_n : DotDims S12800x128 S64x128 S12800x64 where
  lhsContracting := [1]
  rhsContracting := [1]
  lhsNonContracting := [0]
  rhsNonContracting := [0]
  lhsBatch := []
  rhsBatch := []
  wf := dot_S12800x128_S64x128_S12800x64_1_1_0_0_n_n_wf
def dot_S12800x64_S64x64_S12800x64_1_1_0_0_n_n : DotDims S12800x64 S64x64 S12800x64 where
  lhsContracting := [1]
  rhsContracting := [1]
  lhsNonContracting := [0]
  rhsNonContracting := [0]
  lhsBatch := []
  rhsBatch := []
  wf := dot_S12800x64_S64x64_S12800x64_1_1_0_0_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S12800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S12800x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1600000x128 : Shape := ⟨2, ![1600000, 128]⟩
abbrev S50000x64 : Shape := ⟨2, ![50000, 64]⟩
abbrev S1600000 : Shape := ⟨1, ![1600000]⟩
abbrev S64x128 : Shape := ⟨2, ![64, 128]⟩
abbrev S64 : Shape := ⟨1, ![64]⟩
abbrev S64x64 : Shape := ⟨2, ![64, 64]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩

abbrev nBuf : Space → Nat
  | .hbm => 57
  | .vmem => 0
  | .smem => 0
  | _ => 0

abbrev bufTy : (tb : Table) → Fin (tcTables nBuf tb) → BufTy
  | .hbm, ⟨0, _⟩ => ⟨S1600000x128, .f32⟩
  | .hbm, ⟨1, _⟩ => ⟨S50000x64, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1600000x64, .f32⟩
  | .hbm, ⟨9, _⟩ => ⟨S1x64, .f32⟩
  | .hbm, ⟨10, _⟩ => ⟨S1600000x64, .f32⟩
  | .hbm, ⟨11, _⟩ => ⟨S1600000x64, .f32⟩
  | .hbm, ⟨12, _⟩ => ⟨S_, .f32⟩
  | .hbm, ⟨13, _⟩ => ⟨S1600000x64, .f32⟩
  | .hbm, ⟨14, _⟩ => ⟨S1600000x64, .f32⟩
  | .hbm, ⟨15, _⟩ => ⟨S_, .f32⟩
  | .hbm, ⟨16, _⟩ => ⟨S1600000x64, .f32⟩
  | .hbm, ⟨17, _⟩ => ⟨S1600000x64, .i1⟩
  | .hbm, ⟨18, _⟩ => ⟨S_, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S1600000x64, .f32⟩
  | .hbm, ⟨23, _⟩ => ⟨S1600000x64, .f32⟩
  | .hbm, ⟨24, _⟩ => ⟨S1600000x64, .f32⟩
  | .hbm, ⟨25, _⟩ => ⟨S1600000x64, .f32⟩
  | .hbm, ⟨26, _⟩ => ⟨S1600000x64, .i1⟩
  | .hbm, ⟨27, _⟩ => ⟨S1600000x64, .f32⟩
  | .hbm, ⟨28, _⟩ => ⟨S1600000x64, .f32⟩
  | .hbm, ⟨29, _⟩ => ⟨S1600000x64, .f32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S1600000x64, .f32⟩
  | .hbm, ⟨40, _⟩ => ⟨S1x64, .f32⟩
  | .hbm, ⟨41, _⟩ => ⟨S1600000x64, .f32⟩
  | .hbm, ⟨42, _⟩ => ⟨S1600000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S50000x64, .f32⟩
  | .hbm, ⟨55, _⟩ => ⟨S1600000x1, .i32⟩
  | .hbm, ⟨56, _⟩ => ⟨S50000x64, .f32⟩
  | _, _ => ⟨S1600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  dot_S1600000x128_S64x128_S1600000x64_1_1_0_0_n_n_wf : DotDims.WF S1600000x128 S64x128 S1600000x64 [1] [1] [0] [0] [] []
  dot_S1600000x64_S64x64_S1600000x64_1_1_0_0_n_n_wf : DotDims.WF S1600000x64 S64x64 S1600000x64 [1] [1] [0] [0] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S1600000x128_S64x128_S1600000x64_1_1_0_0_n_n : DotDims S1600000x128 S64x128 S1600000x64 where
  lhsContracting := [1]
  rhsContracting := [1]
  lhsNonContracting := [0]
  rhsNonContracting := [0]
  lhsBatch := []
  rhsBatch := []
  wf := dot_S1600000x128_S64x128_S1600000x64_1_1_0_0_n_n_wf
def dot_S1600000x64_S64x64_S1600000x64_1_1_0_0_n_n : DotDims S1600000x64 S64x64 S1600000x64 where
  lhsContracting := [1]
  rhsContracting := [1]
  lhsNonContracting := [0]
  rhsNonContracting := [0]
  lhsBatch := []
  rhsBatch := []
  wf := dot_S1600000x64_S64x64_S1600000x64_1_1_0_0_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.EdgeNet.lean ====
/-
  The edge network of a continuous-filter convolution, as ONE function of its five arrays.

  For an edge `e` and a feature `q` the network's output is

      out e q = (∑ k : 64 features, act (hidden e k) · W2 q k) + b2 q,
      hidden e k = (∑ r : 128 radial basis values, rbf e r · W1 k r) + b1 k,

  with `act` the softplus of slope 1/2 and threshold 14,

      act h = h                       when 14 < h/2,
            = 2 · softplus (h/2)      otherwise,

  and `softplus z = max z 0 + log (1 + exp (−|z − 0|))`, the overflow-free spelling of `log (1 + eᶻ)`, behind a
  guard `δ ≠ δ` (with `δ = z − 0`) that no extended real satisfies. Everything here is over the extended reals:
  sums, products, `max`, `exp` and `log (1 + ·)` are the exact ones, and the three scalars 1/2, 14 and 2 stay the
  words both programs print, never evaluated. Only the zero word is: `0 − y = −y`.
-/
import Idealize.ShloMosaic.PureOps.Ideal
import Idealize.ShloMosaic.PureOps.Ideal.Laws
import Idealize.ShloMosaic.Lib.ValueIdx

noncomputable section

namespace Cert.EdgeNet

open Idealize.ShloMosaic Idealize.ShloMosaic.ValueIdx

/-- The radial basis values, one row of 128 per edge. -/
abbrev SRbf : Shape := ⟨2, ![1600000, 128]⟩
/-- The first layer's weights, one row of 128 per hidden feature. -/
abbrev SW1 : Shape := ⟨2, ![64, 128]⟩
/-- The second layer's weights, one row of 64 per output feature. -/
abbrev SW2 : Shape := ⟨2, ![64, 64]⟩
/-- A bias, one entry per feature. -/
abbrev SBias : Shape := ⟨1, ![64]⟩
/-- The network's output, one row of 64 per edge. -/
abbrev SOut : Shape := ⟨2, ![1600000, 64]⟩

/-- The zero both programs print. -/
abbrev zeroW : EReal := Ideal.ofBits .f32 0x00000000#32

/-- `log (1 + eᶻ)` in its overflow-free spelling `max z 0 + log (1 + exp (−|z − 0|))`, the absolute value written
    `max δ (−δ)` and the negation as a subtraction from zero; the first branch, taken when `δ ≠ δ`, never is. -/
def softplus (z : EReal) : EReal :=
  Scalar.select (Ideal.cmp .one (z - zeroW) (z - zeroW)) (z + zeroW)
    (max z zeroW + Ideal.log1p (Ideal.exp (zeroW - max (z - zeroW) (-(z - zeroW)))))

/-- The activation: the identity above the threshold (`14 < h/2`), twice the softplus of `h/2` below it. -/
def act (h : EReal) : EReal :=
  Scalar.select (Ideal.cmp .ogt (Ideal.ofBits .f32 0x3F000000#32 * h) (Ideal.ofBits .f32 0x41600000#32)) h
    (Ideal.ofBits .f32 0x40000000#32 * softplus (Ideal.ofBits .f32 0x3F000000#32 * h))

/-- The same softplus with `−|δ|` written as a negation and the guard as the unordered `≠`: on the extended
    reals `0 − y = −y`, and the ordered and unordered comparisons are one. -/
theorem softplus_neg (z : EReal) :
    Scalar.select (Ideal.cmp .une (z - zeroW) (z - zeroW)) (z + zeroW)
      (max z zeroW + Ideal.log1p (Ideal.exp (-(max (z - zeroW) (-(z - zeroW)))))) = softplus z := by
  unfold softplus
  have hneg : ∀ y : EReal, zeroW - y = -y := fun y => by
    show Ideal.ofBits .f32 0x00000000#32 - y = -y
    rw [Ideal.ofBits_zero_f32, zero_sub]
  rw [hneg]
  rfl

/-- The hidden layer before its activation: edge `e`'s radial basis row against hidden feature `k`'s weights, plus the bias. -/
def hiddenAt (X : FVec Ideal SRbf .f32) (W1 : FVec Ideal SW1 .f32) (b1 : FVec Ideal SBias .f32) (e : Fin 1600000) (k : Fin 64) : EReal :=
  (∑ r : Fin 128, X (ix2 e r) * W1 (ix2 k r)) + b1 (ix1 k)

/-- The network's output array: the activated hidden row of an edge against output feature `q`'s weights, plus the bias. -/
def edgeOut (X : FVec Ideal SRbf .f32) (W1 : FVec Ideal SW1 .f32) (b1 : FVec Ideal SBias .f32) (W2 : FVec Ideal SW2 .f32)
    (b2 : FVec Ideal SBias .f32) : FVec Ideal SOut .f32 := fun i =>
  (∑ k : Fin 64, act (hiddenAt X W1 b1 (i 0) k) * W2 (ix2 (i 1) k)) + b2 (ix1 (i 1))

end Cert.EdgeNet

end
-- ==== Proof.KernelBlock.lean ====
/-
  One grid point's block of the network's output, index by index.

  A grid point computes, for the 12800 edges of its block, exactly the network of `Cert.EdgeNet`: its first matrix
  product contracts the block's radial basis rows with the rows of `W1` (the narrowing of both operands is the
  identity on extended reals, and the product into a zero accumulator is the plain sum over the 128 contracted
  positions), the bias row is spread over the block's rows, the activation acts entry by entry, and the second
  product contracts the activated rows with the rows of `W2`. Row `p` of the block therefore depends on row `p` of the
  block's radial basis values only, and on all of `W1`, `b1`, `W2`, `b2`.
-/
import proofs.«114245_j83743272337867_1_alg».proof.Proof.Gen.KernelIdeal.Skeleton
import proofs.«114245_j83743272337867_1_alg».proof.Proof.EdgeNet
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.EdgeNet

/-! ## The two matrix products, read at an index -/

theorem lhs_first_0 (i : S12800x64.Idx) (q : dot_S12800x128_S64x128_S12800x64_1_1_0_0_n_n.contr.Idx) :
    (dot_S12800x128_S64x128_S12800x64_1_1_0_0_n_n.lhsIdx i q 0).val = (i 0).val := by
  unfold DotDims.lhsIdx
  rw [dif_neg (show ¬(0 : Fin S12800x128.rank) ∈ dot_S12800x128_S64x128_S12800x64_1_1_0_0_n_n.lhsBatch by decide), dif_pos (show (0 : Fin S12800x128.rank) ∈ dot_S12800x128_S64x128_S12800x64_1_1_0_0_n_n.lhsNonContracting by decide)]
  rfl
theorem lhs_first_1 (i : S12800x64.Idx) (q : dot_S12800x128_S64x128_S12800x64_1_1_0_0_n_n.contr.Idx) :
    (dot_S12800x128_S64x128_S12800x64_1_1_0_0_n_n.lhsIdx i q 1).val = (q ⟨0, by decide⟩).val :=
  dot_S12800x128_S64x128_S12800x64_1_1_0_0_n_n.lhsIdx_val_of_single rfl i q
theorem rhs_first_0 (i : S12800x64.Idx) (q : dot_S12800x128_S64x128_S12800x64_1_1_0_0_n_n.contr.Idx) :
    (dot_S12800x128_S64x128_S12800x64_1_1_0_0_n_n.rhsIdx i q 0).val = (i 1).val := by
  unfold DotDims.rhsIdx
  rw [dif_neg (show ¬(0 : Fin S64x128.rank) ∈ dot_S12800x128_S64x128_S12800x64_1_1_0_0_n_n.rhsBatch by decide), dif_pos (show (0 : Fin S64x128.rank) ∈ dot_S12800x128_S64x128_S12800x64_1_1_0_0_n_n.rhsNonContracting by decide)]
  rfl
theorem rhs_first_1 (i : S12800x64.Idx) (q : dot_S12800x128_S64x128_S12800x64_1_1_0_0_n_n.contr.Idx) :
    (dot_S12800x128_S64x128_S12800x64_1_1_0_0_n_n.rhsIdx i q 1).val = (q ⟨0, by decide⟩).val :=
  dot_S12800x128_S64x128_S12800x64_1_1_0_0_n_n.rhsIdx_val_of_single rfl i q

/-- The first product: row `p` of the left operand against row `k` of the right, over the 128 contracted positions. -/
theorem first_product_apply {φ₁ φ₂ : FTy} (l : FVec Ideal S12800x128 φ₁) (w : FVec Ideal S64x128 φ₂) (p : Fin 12800) (k : Fin 64) :
    Idealize.ShloMosaic.matmul dot_S12800x128_S64x128_S12800x64_1_1_0_0_n_n none l w (constant S12800x64 .f32 0x00000000#32) (ix2 p k)
      = ∑ r : Fin 128, l (ix2 p r) * w (ix2 k r) := by
  show FloatOps.matmul dot_S12800x128_S64x128_S12800x64_1_1_0_0_n_n none l w (constant S12800x64 .f32 0x00000000#32) (ix2 p k) = _
  rw [Ideal.matmul_constant_zero_apply, ← Equiv.sum_comp (ValueIdx.contrEquiv1 dot_S12800x128_S64x128_S12800x64_1_1_0_0_n_n 128 rfl rfl).symm]
  refine Finset.sum_congr rfl fun r _ => ?_
  have hr := ValueIdx.contrEquiv1_symm_val dot_S12800x128_S64x128_S12800x64_1_1_0_0_n_n 128 rfl rfl r
  have el : dot_S12800x128_S64x128_S12800x64_1_1_0_0_n_n.lhsIdx (ix2 p k) ((ValueIdx.contrEquiv1 dot_S12800x128_S64x128_S12800x64_1_1_0_0_n_n 128 rfl rfl).symm r) = ix2 p r := funext fun a => Fin.ext (by
    match a with
    | ⟨0, _⟩ => exact lhs_first_0 _ _
    | ⟨1, _⟩ => exact (lhs_first_1 _ _).trans hr)
  have er : dot_S12800x128_S64x128_S12800x64_1_1_0_0_n_n.rhsIdx (ix2 p k) ((ValueIdx.contrEquiv1 dot_S12800x128_S64x128_S12800x64_1_1_0_0_n_n 128 rfl rfl).symm r) = ix2 k r := funext fun a => Fin.ext (by
    match a with
    | ⟨0, _⟩ => exact rhs_first_0 _ _
    | ⟨1, _⟩ => exact (rhs_first_1 _ _).trans hr)
  rw [el, er]

theorem lhs_second_0 (i : S12800x64.Idx) (q : dot_S12800x64_S64x64_S12800x64_1_1_0_0_n_n.contr.Idx) :
    (dot_S12800x64_S64x64_S12800x64_1_1_0_0_n_n.lhsIdx i q 0).val = (i 0).val := by
  unfold DotDims.lhsIdx
  rw [dif_neg (show ¬(0 : Fin S12800x64.rank) ∈ dot_S12800x64_S64x64_S12800x64_1_1_0_0_n_n.lhsBatch by decide), dif_pos (show (0 : Fin S12800x64.rank) ∈ dot_S12800x64_S64x64_S12800x64_1_1_0_0_n_n.lhsNonContracting by decide)]
  rfl
theorem lhs_second_1 (i : S12800x64.Idx) (q : dot_S12800x64_S64x64_S12800x64_1_1_0_0_n_n.contr.Idx) :
    (dot_S12800x64_S64x64_S12800x64_1_1_0_0_n_n.lhsIdx i q 1).val = (q ⟨0, by decide⟩).val :=
  dot_S12800x64_S64x64_S12800x64_1_1_0_0_n_n.lhsIdx_val_of_single rfl i q
theorem rhs_second_0 (i : S12800x64.Idx) (q : dot_S12800x64_S64x64_S12800x64_1_1_0_0_n_n.contr.Idx) :
    (dot_S12800x64_S64x64_S12800x64_1_1_0_0_n_n.rhsIdx i q 0).val = (i 1).val := by
  unfold DotDims.rhsIdx
  rw [dif_neg (show ¬(0 : Fin S64x64.rank) ∈ dot_S12800x64_S64x64_S12800x64_1_1_0_0_n_n.rhsBatch by decide), dif_pos (show (0 : Fin S64x64.rank) ∈ dot_S12800x64_S64x64_S12800x64_1_1_0_0_n_n.rhsNonContracting by decide)]
  rfl
theorem rhs_second_1 (i : S12800x64.Idx) (q : dot_S12800x64_S64x64_S12800x64_1_1_0_0_n_n.contr.Idx) :
    (dot_S12800x64_S64x64_S12800x64_1_1_0_0_n_n.rhsIdx i q 1).val = (q ⟨0, by decide⟩).val :=
  dot_S12800x64_S64x64_S12800x64_1_1_0_0_n_n.rhsIdx_val_of_single rfl i q

/-- The second product: row `p` of the left operand against row `q` of the right, over the 64 contracted positions. -/
theorem second_product_apply {φ₁ φ₂ : FTy} (l : FVec Ideal S12800x64 φ₁) (w : FVec Ideal S64x64 φ₂) (p : Fin 12800) (q : Fin 64) :
    Idealize.ShloMosaic.matmul dot_S12800x64_S64x64_S12800x64_1_1_0_0_n_n none l w (constant S12800x64 .f32 0x00000000#32) (ix2 p q)
      = ∑ k : Fin 64, l (ix2 p k) * w (ix2 q k) := by
  show FloatOps.matmul dot_S12800x64_S64x64_S12800x64_1_1_0_0_n_n none l w (constant S12800x64 .f32 0x00000000#32) (ix2 p q) = _
  rw [Ideal.matmul_constant_zero_apply, ← Equiv.sum_comp (ValueIdx.contrEquiv1 dot_S12800x64_S64x64_S12800x64_1_1_0_0_n_n 64 rfl rfl).symm]
  refine Finset.sum_congr rfl fun k _ => ?_
  have hk := ValueIdx.contrEquiv1_symm_val dot_S12800x64_S64x64_S12800x64_1_1_0_0_n_n 64 rfl rfl k
  have el : dot_S12800x64_S64x64_S12800x64_1_1_0_0_n_n.lhsIdx (ix2 p q) ((ValueIdx.contrEquiv1 dot_S12800x64_S64x64_S12800x64_1_1_0_0_n_n 64 rfl rfl).symm k) = ix2 p k := funext fun a => Fin.ext (by
    match a with
    | ⟨0, _⟩ => exact lhs_second_0 _ _
    | ⟨1, _⟩ => exact (lhs_second_1 _ _).trans hk)
  have er : dot_S12800x64_S64x64_S12800x64_1_1_0_0_n_n.rhsIdx (ix2 p q) ((ValueIdx.contrEquiv1 dot_S12800x64_S64x64_S12800x64_1_1_0_0_n_n 64 rfl rfl).symm k) = ix2 q k := funext fun a => Fin.ext (by
    match a with
    | ⟨0, _⟩ => exact rhs_second_0 _ _
    | ⟨1, _⟩ => exact (rhs_second_1 _ _).trans hk)
  rw [el, er]

/-! ## A bias row spread over the block -/

/-- The one-row bias block, spread over the 12800 rows, read at row `p`, feature `k`, is the bias of feature `k`. -/
theorem bias_rows_apply (b : Vec Ideal S1x64 .f32) (p : Fin 12800) (k : Fin 64) :
    broadcastTo S12800x64 (shapeCast S1x64 b shapeCasts_S1x64_S1x64) broadcasts_S1x64_S12800x64 (ix2 p k) = b (ix2 0 k) := by
  rw [shapeCast_self]
  exact broadcastTo_apply b broadcasts_S1x64_S12800x64 (ix2 p k) (ix2 0 k) (fun a => match a with
    | ⟨0, _⟩ => by show (0 : Nat) = if (1 : Nat) = 1 then 0 else _; rw [if_pos rfl]
    | ⟨1, _⟩ => by show k.val = if (64 : Nat) = 1 then 0 else k.val; rw [if_neg (by decide)])

/-! ## The block's hidden layer and its output -/

/-- The block's hidden layer before the activation, as the body computes it: the first product plus the spread bias. -/
def hiddenBlock (x0 : Vec Ideal S12800x128 .f32) (x1 : Vec Ideal S64x128 .f32) (x2 : Vec Ideal S1x64 .f32) : FVec Ideal S12800x64 .f32 :=
  addf (Idealize.ShloMosaic.matmul dot_S12800x128_S64x128_S12800x64_1_1_0_0_n_n none (truncf .bf16 x0 bitsLt_bf16_f32) (truncf .bf16 x1 bitsLt_bf16_f32) (constant S12800x64 .f32 0x00000000#32))
    (broadcastTo S12800x64 (shapeCast S1x64 x2 shapeCasts_S1x64_S1x64) broadcasts_S1x64_S12800x64)

/-- Row `p`, hidden feature `k`: the row's radial basis values against feature `k`'s weights, plus its bias. -/
theorem hiddenBlock_apply (x0 : Vec Ideal S12800x128 .f32) (x1 : Vec Ideal S64x128 .f32) (x2 : Vec Ideal S1x64 .f32) (p : Fin 12800) (k : Fin 64) :
    hiddenBlock x0 x1 x2 (ix2 p k) = (∑ r : Fin 128, x0 (ix2 p r) * x1 (ix2 k r)) + x2 (ix2 0 k) := by
  unfold hiddenBlock
  rw [addf_apply, first_product_apply, bias_rows_apply]
  rfl

/-- The body's result is the second product of the activated hidden layer, plus the spread bias; the activation acts
    entry by entry, so the activated hidden layer at an index is `act` of the hidden layer there. -/
theorem payload_apply (x0 : Vec Ideal S12800x128 .f32) (x1 : Vec Ideal S64x128 .f32) (x2 : Vec Ideal S1x64 .f32) (x3 : Vec Ideal S64x64 .f32)
    (x4 : Vec Ideal S1x64 .f32) (p : Fin 12800) (q : Fin 64) :
    k0_pay1 (F := Ideal) x0 x1 x2 x3 x4 (ix2 p q)
      = (∑ k : Fin 64, act ((∑ r : Fin 128, x0 (ix2 p r) * x1 (ix2 k r)) + x2 (ix2 0 k)) * x3 (ix2 q k)) + x4 (ix2 0 q) := by
  have hact : ∀ k : Fin 64, act (hiddenBlock x0 x1 x2 (ix2 p k)) = act ((∑ r : Fin 128, x0 (ix2 p r) * x1 (ix2 k r)) + x2 (ix2 0 k)) :=
    fun k => by rw [hiddenBlock_apply]
  simp only [← hact]
  unfold k0_pay1
  rw [addf_apply, second_product_apply, bias_rows_apply]
  rfl

end Cert.KernelIdeal.Block

end
-- ==== Proof.KernelNet.lean ====
/-
  The kernel's run, read: the network's output array, then the message passing step on it.

  The grid has 125 points; point `t` is handed rows `12800·t … 12800·t + 12799` of the radial basis array, the whole of
  `W1`, `W2` and of the two bias rows (each bias a 64-vector the program first lays out as one row of 64), and writes back
  rows `12800·t … 12800·t + 12799` of the output. By `Block.payload_apply` what it writes is the network of `Cert.EdgeNet`
  on those rows, so block `t` of the final array is block `t` of `EdgeNet.edgeOut` of the five argument arrays. Every row
  `e` lies in the block of point `e / 12800`, so the blocks cover the array, and the array after the region IS `edgeOut`.
  The lines after the region gather each edge's source row of the node table, multiply it entry by entry with the edge's
  network output, and add the products into the destination node's row: `aggregate`, read off the operations as they
  stand.
-/
import proofs.«114245_j83743272337867_1_alg».proof.Proof.Gen.KernelIdeal.Frame
import proofs.«114245_j83743272337867_1_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Net

open Cert.KernelIdeal Cert.KernelIdeal.Gen Cert.KernelIdeal.Block Idealize.ShloMosaic.ValueIdx Cert.EdgeNet

variable (m : (ℓ : Loc nD τ sig) → Buf (Elt Ideal) ℓ) (ρ : Dev nD → PrngReg)

/-! ## The message passing step -/

/-- Gather the source node's row for every edge (a negative index wrapped once by the node count), multiply it entry by
    entry with the edge's network output `h`, and add the products into the destination node's row of a zero table. -/
def aggregate (nodes : (⟨S50000x64, .f32⟩ : BufTy).Contents (Elt Ideal)) (src dst : (⟨S1600000, .i32⟩ : BufTy).Contents (Elt Ideal))
    (h : (⟨S1600000x64, .f32⟩ : BufTy).Contents (Elt Ideal)) : (⟨S50000x64, .f32⟩ : BufTy).Contents (Elt Ideal) :=
  Host.scatterAdd scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 dst)
    (mulf (Host.gather gather_S50000x64_S1600000x1_S1600000x64_1_0_n_n_0_1_164 nodes
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src))) h)

/-! ## The arrays the region finds, and the blocks a point is handed -/

theorem hz : (![0, 0] : Fin 2 → Nat) = fun _ => 0 := funext fun a => by fin_cases a <;> rfl

/-- The block indices over the grid: the radial basis window and the output window are at row block `t`, the four
    parameter windows at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A 64-vector laid out as one row of 64, read at that row's entry `k`, is the vector's entry `k`. -/
theorem row_of_vector_apply (b : S64.Idx → EReal) (k : Fin 64) :
    shapeCast S1x64 b shapeCasts_S64_S1x64 (ix2 (0 : Fin 1) k) = b (ix1 k) := by
  refine (shapeCast_addUnit_apply (![64] : Fin 1 → Nat) b shapeCasts_S64_S1x64 (ix2 (0 : Fin 1) k)).trans ?_
  congr 1
  funext a
  match a with
  | ⟨0, _⟩ => rfl

/-- The first bias as the region finds it: the 64-vector laid out as one row. -/
theorem bias1_row (c : Dev nD) :
    (V m c main_v0 : S1x64.Idx → EReal) = shapeCast S1x64 (m ((c : Thread nD τ).loc main_arg5) : S64.Idx → EReal) shapeCasts_S64_S1x64 := by
  show StableHlo.after hostOps0 (fun b => m (c, b)) (Proc.devRef .tc main_v0) = _
  after_results_simp
  rfl

/-- The second bias as the region finds it: the 64-vector laid out as one row. -/
theorem bias2_row (c : Dev nD) :
    (V m c main_v1 : S1x64.Idx → EReal) = shapeCast S1x64 (m ((c : Thread nD τ).loc main_arg7) : S64.Idx → EReal) shapeCasts_S64_S1x64 := by
  show StableHlo.after hostOps0 (fun b => m (c, b)) (Proc.devRef .tc main_v1) = _
  after_results_simp
  rfl

/-- Point `t`'s radial basis block, `W1`, the first bias row, `W2`, the second bias row. -/
abbrev rbfBlk (c : Dev nD) (t : Fin cfg0.N) : Vec Ideal S12800x128 .f32 := iblk m c 0 t
abbrev w1Blk (c : Dev nD) (t : Fin cfg0.N) : Vec Ideal S64x128 .f32 := iblk m c 1 t
abbrev b1Blk (c : Dev nD) (t : Fin cfg0.N) : Vec Ideal S1x64 .f32 := iblk m c 2 t
abbrev w2Blk (c : Dev nD) (t : Fin cfg0.N) : Vec Ideal S64x64 .f32 := iblk m c 3 t
abbrev b2Blk (c : Dev nD) (t : Fin cfg0.N) : Vec Ideal S1x64 .f32 := iblk m c 4 t

/-- Row `p` of point `t`'s radial basis block is row `12800·t + p` of the array. -/
theorem rbfBlk_apply (c : Dev nD) (t : Fin cfg0.N) (p : Fin 12800) (r : Fin 128) (e : Fin 1600000) (he : e.val = 12800 * t.val + p.val) :
    rbfBlk m c t (ix2 p r) = (m ((c : Thread nD τ).loc main_arg0) : S1600000x128.Idx → EReal) (ix2 e r) := by
  obtain ⟨h0, h1, -⟩ := idx_facts t
  unfold rbfBlk iblk
  rw [View.read_apply]
  show V m c main_arg0 _ = _
  rw [V_main_arg0]
  congr 1
  funext a
  apply Fin.ext
  match a with
  | ⟨0, _⟩ => show win0_0.index t 0 * 12800 + 1 * p.val = e.val; rw [h0, he]; omega
  | ⟨1, _⟩ => show win0_0.index t 1 * 128 + 1 * r.val = r.val; rw [h1]; omega

/-- Every point is handed the whole of `W1`. -/
theorem w1Blk_apply (c : Dev nD) (t : Fin cfg0.N) (k : Fin 64) (r : Fin 128) :
    w1Blk m c t (ix2 k r) = (m ((c : Thread nD τ).loc main_arg4) : S64x128.Idx → EReal) (ix2 k r) := by
  obtain ⟨-, -, h0, h1, -⟩ := idx_facts t
  unfold w1Blk iblk
  rw [View.read_apply]
  show V m c main_arg4 _ = _
  rw [V_main_arg4]
  congr 1
  funext a
  apply Fin.ext
  match a with
  | ⟨0, _⟩ => show win0_1.index t 0 * 64 + 1 * k.val = k.val; rw [h0]; omega
  | ⟨1, _⟩ => show win0_1.index t 1 * 128 + 1 * r.val = r.val; rw [h1]; omega

/-- Every point is handed the first bias row, whose entry `k` is the bias vector's. -/
theorem b1Blk_apply (c : Dev nD) (t : Fin cfg0.N) (k : Fin 64) :
    b1Blk m c t (ix2 (0 : Fin 1) k) = (m ((c : Thread nD τ).loc main_arg5) : S64.Idx → EReal) (ix1 k) := by
  obtain ⟨-, -, -, -, h0, h1, -⟩ := idx_facts t
  unfold b1Blk iblk
  rw [View.read_apply]
  show V m c main_v0 _ = _
  rw [bias1_row]
  refine Eq.trans ?_ (row_of_vector_apply _ k)
  congr 1
  funext a
  apply Fin.ext
  match a with
  | ⟨0, _⟩ => show win0_2.index t 0 * 1 + 1 * 0 = 0; rw [h0]
  | ⟨1, _⟩ => show win0_2.index t 1 * 64 + 1 * k.val = k.val; rw [h1]; omega

/-- Every point is handed the whole of `W2`. -/
theorem w2Blk_apply (c : Dev nD) (t : Fin cfg0.N) (q k : Fin 64) :
    w2Blk m c t (ix2 q k) = (m ((c : Thread nD τ).loc main_arg6) : S64x64.Idx → EReal) (ix2 q k) := by
  obtain ⟨-, -, -, -, -, -, h0, h1, -⟩ := idx_facts t
  unfold w2Blk iblk
  rw [View.read_apply]
  show V m c main_arg6 _ = _
  rw [V_main_arg6]
  congr 1
  funext a
  apply Fin.ext
  match a with
  | ⟨0, _⟩ => show win0_3.index t 0 * 64 + 1 * q.val = q.val; rw [h0]; omega
  | ⟨1, _⟩ => show win0_3.index t 1 * 64 + 1 * k.val = k.val; rw [h1]; omega

/-- Every point is handed the second bias row, whose entry `q` is the bias vector's. -/
theorem b2Blk_apply (c : Dev nD) (t : Fin cfg0.N) (q : Fin 64) :
    b2Blk m c t (ix2 (0 : Fin 1) q) = (m ((c : Thread nD τ).loc main_arg7) : S64.Idx → EReal) (ix1 q) := by
  obtain ⟨-, -, -, -, -, -, -, -, h0, h1, -⟩ := idx_facts t
  unfold b2Blk iblk
  rw [View.read_apply]
  show V m c main_v1 _ = _
  rw [bias2_row]
  refine Eq.trans ?_ (row_of_vector_apply _ q)
  congr 1
  funext a
  apply Fin.ext
  match a with
  | ⟨0, _⟩ => show win0_4.index t 0 * 1 + 1 * 0 = 0; rw [h0]
  | ⟨1, _⟩ => show win0_4.index t 1 * 64 + 1 * q.val = q.val; rw [h1]; omega

/-! ## What a point writes back, and the array after the region -/

/-- The network's output of the five argument arrays as launched. -/
abbrev netOut (c : Dev nD) : Buf (Elt Ideal) ((c : Thread nD τ).loc main_v2) :=
  edgeOut (m ((c : Thread nD τ).loc main_arg0)) (m ((c : Thread nD τ).loc main_arg4)) (m ((c : Thread nD τ).loc main_arg5))
    (m ((c : Thread nD τ).loc main_arg6)) (m ((c : Thread nD τ).loc main_arg7))

/-- WHAT POINT `t` WRITES BACK is block `t` of the network's output. -/
theorem flushed_eq (c : Dev nD) (t : Fin cfg0.N) :
    (dats m 0 c).flushed 5 t = ((cfg0.win 5).blk t).view.read (Elt Ideal) (netOut m c) := by
  show (cfg0.win 5).cut (grid0.coords t) ((dats m 0 c).after 5 t) = _
  rw [after0_5]
  unfold out0_5
  rw [View.canon_unit_zero hz]
  simp only [View.ld_unit_zero (S := S12800x128) hz, View.ld_unit_zero (S := S64x128) hz, View.ld_unit_zero (S := S1x64) hz,
    View.ld_unit_zero (S := S64x64) hz]
  obtain ⟨-, -, -, -, -, -, -, -, -, -, h0, h1⟩ := idx_facts t
  refine funext fun (j : S12800x64.Idx) => ?_
  obtain ⟨p, q, rfl⟩ : ∃ (p : Fin 12800) (q : Fin 64), j = ix2 p q := ⟨j 0, j 1, eq_ix2 j⟩
  have hlt : 12800 * t.val + p.val < 1600000 := by
    have ht : t.val < 125 := lt_of_lt_of_eq t.isLt (show cfg0.N = 125 from N_0)
    have hp := p.isLt
    omega
  show k0_pay1 (F := Ideal) (rbfBlk m c t) (w1Blk m c t) (b1Blk m c t) (w2Blk m c t) (b2Blk m c t) (ix2 p q)
      = netOut m c (((cfg0.win 5).blk t).view.emb (ix2 p q))
  have hemb : ((cfg0.win 5).blk t).view.emb (ix2 p q) = (ix2 (⟨12800 * t.val + p.val, hlt⟩ : Fin 1600000) q : S1600000x64.Idx) :=
    funext fun a => Fin.ext (by
      match a with
      | ⟨0, _⟩ => show win0_5.index t 0 * 12800 + 1 * p.val = 12800 * t.val + p.val; rw [h0]; omega
      | ⟨1, _⟩ => show win0_5.index t 1 * 64 + 1 * q.val = q.val; rw [h1]; omega)
  rw [hemb]
  refine (payload_apply (rbfBlk m c t) (w1Blk m c t) (b1Blk m c t) (w2Blk m c t) (b2Blk m c t) p q).trans ?_
  simp only [rbfBlk_apply m c t p _ ⟨12800 * t.val + p.val, hlt⟩ rfl, w1Blk_apply m c t, b1Blk_apply m c t, w2Blk_apply m c t,
    b2Blk_apply m c t]
  rfl

/-- An index of the output array is in point `t`'s block iff each coordinate is in the block's range on its axis. -/
theorem mem_blk (t : Fin cfg0.N) (i : S1600000x64.Idx) :
    i ∈ ((cfg0.win 5).blk t).view.set ↔ ∀ a : Fin 2, win0_5.index t a * S12800x64.size a ≤ (i a).val ∧ (i a).val < win0_5.index t a * S12800x64.size a + S12800x64.size a := by
  show i ∈ ((View.whole main_v2).slice (win0_5.rect t)).set ↔ _
  rw [View.set_slice_whole, Rect.mem_set_unit]
  exact Iff.rfl

/-- Row `e` of the output lies in the block of point `e / 12800`: the blocks cover the array. -/
theorem cover (i : S1600000x64.Idx) : ∃ t : Fin cfg0.N, (cfg0.win 5).flush t = true ∧ i ∈ ((cfg0.win 5).blk t).view.set := by
  have hi0 : (i 0).val < 1600000 := (i 0).isLt
  have hi1 : (i 1).val < 64 := (i 1).isLt
  have hN : cfg0.N = 125 := N_0
  obtain ⟨t, ht⟩ : ∃ t : Fin cfg0.N, t.val = (i 0).val / 12800 := ⟨⟨(i 0).val / 12800, by rw [hN]; omega⟩, rfl⟩
  obtain ⟨-, -, -, -, -, -, -, -, -, -, h0, h1⟩ := idx_facts t
  refine ⟨t, flush0_5 t, ?_⟩
  rw [mem_blk]
  intro a
  match a with
  | ⟨0, _⟩ => show win0_5.index t 0 * 12800 ≤ (i 0).val ∧ (i 0).val < win0_5.index t 0 * 12800 + 12800; rw [h0, ht]; omega
  | ⟨1, _⟩ => show win0_5.index t 1 * 64 ≤ (i 1).val ∧ (i 1).val < win0_5.index t 1 * 64 + 64; rw [h1]; omega

/-- THE ARRAY after the region is the network's output. -/
theorem final (c : Dev nD) : (dats m 0 c).arrAt 5 cfg0.N = netOut m c :=
  (dats m 0 c).arrAt_eq_of_cover 5 (netOut m c) (fun t _ => flushed_eq m c t) cover

/-! ## The lines after the region, and the run -/

/-- The program's result: the message passing step on the node table, the two index vectors and the network's output. -/
theorem tail_eq (c : Dev nD) :
    Pipeline.afterTail₀ cfgs (dats m) 0 (V0 m) [hostOps1] c main_v13
      = aggregate (m ((c : Thread nD τ).loc main_arg1)) (m ((c : Thread nD τ).loc main_arg2)) (m ((c : Thread nD τ).loc main_arg3)) (netOut m c) := by
  have hnet : Pipeline.withArrays (cfgs 0).spec c (V0 m c) (fun w => (dats m 0 c).arrAt w (cfgs 0).N) (Proc.devRef .tc main_v2) = netOut m c :=
    (Pipeline.withArrays_arr spec0 launch0.win.arr_inj c _ _ 5).trans (final m c)
  have h1 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  have h2 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  show StableHlo.after hostOps1 _ (Proc.devRef .tc main_v13) = _
  after_results_simp
  rw [hnet, h1, h2, h3]
  rfl

/-- The run, read: the result at the message passing step on the network's output, every argument array unchanged. -/
theorem run : θ_run defs (onTc (τ := τ) (main (F := Ideal))) ⟨m, fun _ => 0, ρ⟩ fun r => ∀ c : Dev nD,
      r.2.mem ((c : Thread nD τ).loc main_v13)
        = aggregate (m ((c : Thread nD τ).loc main_arg1)) (m ((c : Thread nD τ).loc main_arg2)) (m ((c : Thread nD τ).loc main_arg3)) (netOut m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      (((h c).2 main_arg7 (Pipeline.mem_restRefs_of main_arg7 (by decide) (by decide))).trans (W_main_arg7 m (dats m) c))⟩)
    (run_main m ρ)

end Cert.KernelIdeal.Net

end
-- ==== Proof.RefNet.lean ====
/-
  The reference's edge network is the function of `Cert.EdgeNet`.

  The reference computes the network on all 1.6 million edges at once: a contraction of the radial basis rows with the
  rows of `W1`, the bias spread over the rows, the activation entry by entry (its `−|δ|` written as a negation, its
  guard as the unordered `≠`: `EdgeNet.softplus_neg`), a contraction with the rows of `W2`, and the second bias.
  Read at an index each stage is the stage before it at an index, so the whole is `EdgeNet.edgeOut` index by index.
-/
import proofs.«114245_j83743272337867_1_alg».proof.Proof.Gen.ReferenceIdeal.Read
import proofs.«114245_j83743272337867_1_alg».proof.Proof.EdgeNet

noncomputable section

namespace Cert.ReferenceIdeal.Net

open Cert.ReferenceIdeal Cert.ReferenceIdeal.Gen Cert.ReferenceIdeal.Read Idealize.ShloMosaic Idealize.ShloMosaic.ValueIdx Cert.EdgeNet

variable (x0 : (⟨S1600000x128, .f32⟩ : BufTy).Contents (Elt Ideal)) (x4 : (⟨S64x128, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal))

/-- The hidden layer before the activation, at edge `e` and hidden feature `k`. -/
theorem hidden_apply (e : Fin 1600000) (k : Fin 64) :
    val_main_v3 (F := Ideal) x0 x4 x5 (ix2 e k) = hiddenAt x0 x4 x5 e k := by
  rw [val_main_v3_apply, val_main_v0_apply, val_main_v2_apply, val_main_v1_apply]
  unfold hiddenAt
  have el : ∀ r : Fin 128, lidx_main_v0 (ix2 e k) r = ix2 e r := fun r => funext fun a => Fin.ext (by
    match a with
    | ⟨0, _⟩ => rfl
    | ⟨1, _⟩ => rfl)
  have er : ∀ r : Fin 128, ridx_main_v0 (ix2 e k) r = ix2 k r := fun r => funext fun a => Fin.ext (by
    match a with
    | ⟨0, _⟩ => rfl
    | ⟨1, _⟩ => rfl)
  have eb : idx_main_v1 (idx_main_v2 (ix2 e k)) = ix1 k := funext fun a => Fin.ext (by
    match a with
    | ⟨0, _⟩ => rfl)
  simp only [el, er, eb]
  rfl

/-- The activated hidden layer at an index is `act` of the hidden layer there. -/
theorem activated_apply (j : S1600000x64.Idx) :
    val_main_v13 (F := Ideal) x0 x4 x5 j = act (val_main_v3 (F := Ideal) x0 x4 x5 j) := by
  simp only [val_main_v13_apply, val_main_v7_apply, val_main_v5_apply, val_main_v4_apply, val_main_cst_apply, val_main_v6_apply,
    val_main_cst_0_apply, val_main_v12_apply, val_main_v11_apply, val_main_cst_2_apply, val_main_v10_apply, val_main_call0_v4_apply,
    val_main_call0_v3_apply, val_main_v9_apply, val_main_v8_apply, val_main_cst_1_apply, val_main_call0_v2_apply,
    val_main_call0_cst_apply, val_main_call0_v6_apply, val_main_call0_v5_apply, val_main_call0_v11_apply, val_main_call0_v1_apply,
    val_main_call0_v0_apply, val_main_call0_v10_apply, val_main_call0_v9_apply, val_main_call0_v8_apply, val_main_call0_v7_apply]
  generalize val_main_v3 (F := Ideal) x0 x4 x5 j = h
  unfold act
  rw [← softplus_neg]
  rfl

/-- The reference's network output is `edgeOut` of its five arrays. -/
theorem net_eq : val_main_v17 (F := Ideal) x0 x4 x5 x6 x7 = edgeOut x0 x4 x5 x6 x7 := by
  funext i
  obtain ⟨e, q, rfl⟩ : ∃ (e : Fin 1600000) (q : Fin 64), i = ix2 e q := ⟨i 0, i 1, eq_ix2 i⟩
  rw [val_main_v17_apply, val_main_v14_apply, val_main_v16_apply, val_main_v15_apply]
  unfold edgeOut
  have el : ∀ k : Fin 64, lidx_main_v14 (ix2 e q) k = ix2 e k := fun k => funext fun a => Fin.ext (by
    match a with
    | ⟨0, _⟩ => rfl
    | ⟨1, _⟩ => rfl)
  have er : ∀ k : Fin 64, ridx_main_v14 (ix2 e q) k = ix2 q k := fun k => funext fun a => Fin.ext (by
    match a with
    | ⟨0, _⟩ => rfl
    | ⟨1, _⟩ => rfl)
  have eb : idx_main_v15 (idx_main_v16 (ix2 e q)) = ix1 q := funext fun a => Fin.ext (by
    match a with
    | ⟨0, _⟩ => rfl)
  simp only [el, er, eb, activated_apply, hidden_apply]
  rfl

end Cert.ReferenceIdeal.Net

end
-- ==== Proof.lean ====
/-
  A continuous-filter convolution's message passing, the kernel against its reference, over the extended reals.

  Both programs compute, for 1.6 million edges, the two-layer network

      h e q = (∑ k, act ((∑ r, rbf e r · W1 k r) + b1 k) · W2 q k) + b2 q

  (`act` a softplus of slope 1/2, linear above its threshold: Proof/EdgeNet.lean), then gather each edge's source row of
  the node table, multiply it entry by entry with `h e`, and add the products into the destination node's row.

  The kernel computes `h` 12800 edges at a time on a grid of 125 points and leaves the gather, the product and the
  scatter-add to the lines after the region; the reference computes `h` on all edges at once. At the ideal values the
  narrowing of a product's operands is the identity and a product into a zero accumulator is the plain sum over the
  contracted positions, so a point's block of `h` is the same function of the same rows as the reference's
  (Proof/KernelBlock.lean, Proof/RefNet.lean); the blocks cover the array (Proof/KernelNet.lean); and the message
  passing step is the same operations on both sides, applied to equal arrays. No law that needs finiteness is used: the
  two sides are the same sums of the same products, in the same order, so the precondition is never opened.
  The three frames are the generated ones (the reference's is its generated run with the result dropped), and the
  idealization rewrote nothing, so `preserves` is trivial.
-/
import proofs.«114245_j83743272337867_1_alg».proof.Defs
import proofs.«114245_j83743272337867_1_alg».proof.Proof.Gen.Kernel
import proofs.«114245_j83743272337867_1_alg».proof.Proof.Gen.Kernel.Skeleton
import proofs.«114245_j83743272337867_1_alg».proof.Proof.Gen.Kernel.Launch
import proofs.«114245_j83743272337867_1_alg».proof.Proof.Gen.Kernel.Points
import proofs.«114245_j83743272337867_1_alg».proof.Proof.Gen.Kernel.Frame
import proofs.«114245_j83743272337867_1_alg».proof.Proof.Gen.KernelIdeal
import proofs.«114245_j83743272337867_1_alg».proof.Proof.Gen.KernelIdeal.Skeleton
import proofs.«114245_j83743272337867_1_alg».proof.Proof.Gen.KernelIdeal.Launch
import proofs.«114245_j83743272337867_1_alg».proof.Proof.Gen.KernelIdeal.Points
import proofs.«114245_j83743272337867_1_alg».proof.Proof.Gen.KernelIdeal.Frame
import proofs.«114245_j83743272337867_1_alg».proof.Proof.Gen.ReferenceIdeal
import proofs.«114245_j83743272337867_1_alg».proof.Proof.Gen.Pre_finite_inputs
import proofs.«114245_j83743272337867_1_alg».proof.Proof.Gen.ReferenceIdeal.Run
import proofs.«114245_j83743272337867_1_alg».proof.Proof.Gen.ReferenceIdeal.Read
import proofs.«114245_j83743272337867_1_alg».proof.Proof.KernelNet
import proofs.«114245_j83743272337867_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the message passing step applied to the network's output of the (agreeing) argument arrays:
    the kernel's by its run read block by block, the reference's by its stages read at an index. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v28_eq, e0, e1, e2, e3, e4, e5, e6, e7]
  unfold Cert.ReferenceIdeal.Read.val_main_v28 Cert.ReferenceIdeal.Read.val_main_v25
  rw [Cert.ReferenceIdeal.Net.net_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
